-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x128 : Shape := ⟨4, ![8, 128, 128, 128]⟩
abbrev S5x128 : Shape := ⟨2, ![5, 128]⟩
abbrev S_ : Shape := ⟨0, ![]⟩

class Facts : Prop where
  bcast_S_S8x128x128x128 : S_.BroadcastsInDim S8x128x128x128 (![] : Fin 0 → Fin S8x128x128x128.rank)
  reducesTo_S8x128x128x128_S_d0_1_2_3 : S8x128x128x128.ReducesTo [0, 1, 2, 3] S_
  h_S_ : 0 < S_.numel
  bcast_S_S5x128 : S_.BroadcastsInDim S5x128 (![] : Fin 0 → Fin S5x128.rank)
  reducesTo_S5x128_S_d0_1 : S5x128.ReducesTo [0, 1] S_

variable [Facts]

def fn_part1 {F : FTy → Type} [FloatOps F] (main_arg4 : FVec F S8x128x128x128 .f32) (main_arg5 : FVec F S5x128 .f32) (main_v13 : IVec S_ 1) (main_v16 : IVec S8x128x128x128 1) : IVec S_ 1 :=
  let main_c_5 : IVec S_ 1 := constantI S_ 1 1#1
  let main_v17 : IVec S_ 1 := (fun x v => Host.reduce IntOp.andi x v reducesTo_S8x128x128x128_S_d0_1_2_3 h_S_) main_v16 main_c_5
  let main_v18 : IVec S_ 1 := andi main_v13 main_v17
  let main_v19 : FVec F S8x128x128x128 .f32 := Host.absf main_arg4
  let main_cst_6 : FVec F S_ .f32 := constant S_ .f32 0x7F800000#32
  let main_v20 : FVec F S8x128x128x128 .f32 := broadcastInDim S8x128x128x128 ![] bcast_S_S8x128x128x128 main_cst_6
  let main_v21 : IVec S8x128x128x128 1 := cmpf .olt main_v19 main_v20
  let main_c_7 : IVec S_ 1 := constantI S_ 1 1#1
  let main_v22 : IVec S_ 1 := (fun x v => Host.reduce IntOp.andi x v reducesTo_S8x128x128x128_S_d0_1_2_3 h_S_) main_v21 main_c_7
  let main_v23 : IVec S_ 1 := andi main_v18 main_v22
  let main_v24 : FVec F S5x128 .f32 := Host.absf main_arg5
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  main_v28

def fn {F : FTy → Type} [FloatOps F] (main_arg0 : FVec F S8x128x128x128 .f32) (main_arg1 : FVec F S8x128x128x128 .f32) (main_arg2 : FVec F S8x128x128x128 .f32) (main_arg3 : FVec F S8x128x128x128 .f32) (main_arg4 : FVec F S8x128x128x128 .f32) (main_arg5 : FVec F S5x128 .f32) : IVec S_ 1 :=
  let main_v0 : FVec F S8x128x128x128 .f32 := Host.absf main_arg0
  let main_cst : FVec F S_ .f32 := constant S_ .f32 0x7F800000#32
  let main_v1 : FVec F S8x128x128x128 .f32 := broadcastInDim S8x128x128x128 ![] bcast_S_S8x128x128x128 main_cst
  let main_v2 : IVec S8x128x128x128 1 := cmpf .olt main_v0 main_v1
  let main_c : IVec S_ 1 := constantI S_ 1 1#1
  let main_v3 : IVec S_ 1 := (fun x v => Host.reduce IntOp.andi x v reducesTo_S8x128x128x128_S_d0_1_2_3 h_S_) main_v2 main_c
  let main_v4 : FVec F S8x128x128x128 .f32 := Host.absf main_arg1
  let main_cst_0 : FVec F S_ .f32 := constant S_ .f32 0x7F800000#32
  let main_v5 : FVec F S8x128x128x128 .f32 := broadcastInDim S8x128x128x128 ![] bcast_S_S8x128x128x128 main_cst_0
  let main_v6 : IVec S8x128x128x128 1 := cmpf .olt main_v4 main_v5
  let main_c_1 : IVec S_ 1 := constantI S_ 1 1#1
  let main_v7 : IVec S_ 1 := (fun x v => Host.reduce IntOp.andi x v reducesTo_S8x128x128x128_S_d0_1_2_3 h_S_) main_v6 main_c_1
  let main_v8 : IVec S_ 1 := andi main_v3 main_v7
  let main_v9 : FVec F S8x128x128x128 .f32 := Host.absf main_arg2
  let main_cst_2 : FVec F S_ .f32 := constant S_ .f32 0x7F800000#32
  let main_v10 : FVec F S8x128x128x128 .f32 := broadcastInDim S8x128x128x128 ![] bcast_S_S8x128x128x128 main_cst_2
  let main_v11 : IVec S8x128x128x128 1 := cmpf .olt main_v9 main_v10
  let main_c_3 : IVec S_ 1 := constantI S_ 1 1#1
  let main_v12 : IVec S_ 1 := (fun x v => Host.reduce IntOp.andi x v reducesTo_S8x128x128x128_S_d0_1_2_3 h_S_) main_v11 main_c_3
  let main_v13 : IVec S_ 1 := andi main_v8 main_v12
  let main_v14 : FVec F S8x128x128x128 .f32 := Host.absf main_arg3
  let main_cst_4 : FVec F S_ .f32 := constant S_ .f32 0x7F800000#32
  let main_v15 : FVec F S8x128x128x128 .f32 := broadcastInDim S8x128x128x128 ![] bcast_S_S8x128x128x128 main_cst_4
  let main_v16 : IVec S8x128x128x128 1 := cmpf .olt main_v14 main_v15
  fn_part1 (F := F) main_arg4 main_arg5 main_v13 main_v16
-- ==== Kernel.lean ====
abbrev S8x128x128x128 : Shape := ⟨4, ![8, 128, 128, 128]⟩
abbrev S5x128 : Shape := ⟨2, ![5, 128]⟩
abbrev S131072x128 : Shape := ⟨2, ![131072, 128]⟩
abbrev S4096x128 : Shape := ⟨2, ![4096, 128]⟩
abbrev S1x128 : Shape := ⟨2, ![1, 128]⟩
abbrev S128 : Shape := ⟨1, ![128]⟩

abbrev nBuf : Space → Nat
  | .hbm => 13
  | .vmem => 13
  | .smem => 0
  | _ => 0

abbrev bufTy : (tb : Table) → Fin (tcTables nBuf tb) → BufTy
  | .hbm, ⟨0, _⟩ => ⟨S8x128x128x128, .f32⟩
  | .hbm, ⟨1, _⟩ => ⟨S8x128x128x128, .f32⟩
  | .hbm, ⟨2, _⟩ => ⟨S8x128x128x128, .f32⟩
  | .hbm, ⟨3, _⟩ => ⟨S8x128x128x128, .f32⟩
  | .hbm, ⟨4, _⟩ => ⟨S8x128x128x128, .f32⟩
  | .hbm, ⟨5, _⟩ => ⟨S5x128, .f32⟩
  | .hbm, ⟨6, _⟩ => ⟨S131072x128, .f32⟩
  | .hbm, ⟨7, _⟩ => ⟨S131072x128, .f32⟩
  | .hbm, ⟨8, _⟩ => ⟨S131072x128, .f32⟩
  | .hbm, ⟨9, _⟩ => ⟨S131072x128, .f32⟩
  | .hbm, ⟨10, _⟩ => ⟨S131072x128, .f32⟩
  | .hbm, ⟨11, _⟩ => ⟨S131072x128, .f32⟩
  | .hbm, ⟨12, _⟩ => ⟨S8x128x128x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S5x128, .f32⟩
  | .local _ .vmem, ⟨11, _⟩ => ⟨S4096x128, .f32⟩
  | .local _ .vmem, ⟨12, _⟩ => ⟨S4096x128, .f32⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x128x128x128_S131072x128 : S8x128x128x128.ShapeCasts S131072x128
  inb_S5x128_S1x128_0_0 : ∀ a, (![0, 0] : Fin 2 → Nat) a + S1x128.size a ≤ S5x128.size a
  h_S1x128 : 0 < S1x128.numel
  shapeCasts_S1x128_S128 : S1x128.ShapeCasts S128
  inb_S5x128_S1x128_1_0 : ∀ a, (![1, 0] : Fin 2 → Nat) a + S1x128.size a ≤ S5x128.size a
  inb_S5x128_S1x128_2_0 : ∀ a, (![2, 0] : Fin 2 → Nat) a + S1x128.size a ≤ S5x128.size a
  inb_S5x128_S1x128_3_0 : ∀ a, (![3, 0] : Fin 2 → Nat) a + S1x128.size a ≤ S5x128.size a
  inb_S5x128_S1x128_4_0 : ∀ a, (![4, 0] : Fin 2 → Nat) a + S1x128.size a ≤ S5x128.size a
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S128_S1x128 : S128.ShapeCasts S1x128
  broadcasts_S1x128_S4096x128 : S1x128.Broadcasts S4096x128
  shapeCasts_S131072x128_S8x128x128x128 : S131072x128.ShapeCasts S8x128x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S131072x128.size a
  hwx0_4 : ∀ i : grid0.Coords, EltTy.bits .f32 = 32 ∨ (Rect.block (s := S131072x128) S4096x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128.size a ≤ S5x128.size a
  hwx0_5 : ∀ i : grid0.Coords, EltTy.bits .f32 = 32 ∨ (Rect.block (s := S5x128) S5x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S131072x128.size a
  hwx0_6 : ∀ i : grid0.Coords, EltTy.bits .f32 = 32 ∨ (Rect.block (s := S131072x128) S4096x128.size (cc0_transform_6 i) (hinb0_6 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4096x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S5x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x128x128x128 : Shape := ⟨4, ![8, 128, 128, 128]⟩
abbrev S5x128 : Shape := ⟨2, ![5, 128]⟩
abbrev S1x128 : Shape := ⟨2, ![1, 128]⟩
abbrev S128 : Shape := ⟨1, ![128]⟩
abbrev S1x1x1x128 : Shape := ⟨4, ![1, 1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S8x128x128x128, .f32⟩
  | .hbm, ⟨1, _⟩ => ⟨S8x128x128x128, .f32⟩
  | .hbm, ⟨2, _⟩ => ⟨S8x128x128x128, .f32⟩
  | .hbm, ⟨3, _⟩ => ⟨S8x128x128x128, .f32⟩
  | .hbm, ⟨4, _⟩ => ⟨S8x128x128x128, .f32⟩
  | .hbm, ⟨5, _⟩ => ⟨S5x128, .f32⟩
  | .hbm, ⟨6, _⟩ => ⟨S1x128, .f32⟩
  | .hbm, ⟨7, _⟩ => ⟨S128, .f32⟩
  | .hbm, ⟨8, _⟩ => ⟨S1x1x1x128, .f32⟩
  | .hbm, ⟨9, _⟩ => ⟨S8x128x128x128, .f32⟩
  | .hbm, ⟨10, _⟩ => ⟨S8x128x128x128, .f32⟩
  | .hbm, ⟨11, _⟩ => ⟨S1x128, .f32⟩
  | .hbm, ⟨12, _⟩ => ⟨S128, .f32⟩
  | .hbm, ⟨13, _⟩ => ⟨S1x1x1x128, .f32⟩
  | .hbm, ⟨14, _⟩ => ⟨S8x128x128x128, .f32⟩
  | .hbm, ⟨15, _⟩ => ⟨S8x128x128x128, .f32⟩
  | .hbm, ⟨16, _⟩ => ⟨S8x128x128x128, .f32⟩
  | .hbm, ⟨17, _⟩ => ⟨S1x128, .f32⟩
  | .hbm, ⟨18, _⟩ => ⟨S128, .f32⟩
  | .hbm, ⟨19, _⟩ => ⟨S1x1x1x128, .f32⟩
  | .hbm, ⟨20, _⟩ => ⟨S8x128x128x128, .f32⟩
  | .hbm, ⟨21, _⟩ => ⟨S8x128x128x128, .f32⟩
  | .hbm, ⟨22, _⟩ => ⟨S8x128x128x128, .f32⟩
  | .hbm, ⟨23, _⟩ => ⟨S1x128, .f32⟩
  | .hbm, ⟨24, _⟩ => ⟨S128, .f32⟩
  | .hbm, ⟨25, _⟩ => ⟨S1x1x1x128, .f32⟩
  | .hbm, ⟨26, _⟩ => ⟨S8x128x128x128, .f32⟩
  | .hbm, ⟨27, _⟩ => ⟨S8x128x128x128, .f32⟩
  | .hbm, ⟨28, _⟩ => ⟨S8x128x128x128, .f32⟩
  | .hbm, ⟨29, _⟩ => ⟨S1x128, .f32⟩
  | .hbm, ⟨30, _⟩ => ⟨S128, .f32⟩
  | .hbm, ⟨31, _⟩ => ⟨S1x1x1x128, .f32⟩
  | .hbm, ⟨32, _⟩ => ⟨S8x128x128x128, .f32⟩
  | .hbm, ⟨33, _⟩ => ⟨S8x128x128x128, .f32⟩
  | .hbm, ⟨34, _⟩ => ⟨S8x128x128x128, .f32⟩
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]

class Facts₀ : Prop where
  slices_S5x128_S1x128_0_0 : S5x128.Slices ![0, 0] S1x128
  shapeCasts_S1x128_S128 : S1x128.ShapeCasts S128
  bcast_S128_S1x1x1x128_3 : S128.BroadcastsInDim S1x1x1x128 (![3] : Fin 1 → Fin S1x1x1x128.rank)
  bcast_S1x1x1x128_S8x128x128x128_0_1_2_3 : S1x1x1x128.BroadcastsInDim S8x128x128x128 (![0, 1, 2, 3] : Fin 4 → Fin S8x128x128x128.rank)
  slices_S5x128_S1x128_1_0 : S5x128.Slices ![1, 0] S1x128
  slices_S5x128_S1x128_2_0 : S5x128.Slices ![2, 0] S1x128
  slices_S5x128_S1x128_3_0 : S5x128.Slices ![3, 0] S1x128
  slices_S5x128_S1x128_4_0 : S5x128.Slices ![4, 0] S1x128

variable [Facts₀]

class Facts : Prop extends Facts₀ where

variable [Facts]
-- ==== Proof.WeightedSum.lean ====
/-
  The function both programs compute, stated once over literal shapes and for any float instance:
  five images `t₁ … t₅` of shape [8, 128, 128, 128] and a weight table `w` of shape [5, 128] are merged
  channel by channel,
      out[b, h, x, c] = ((((t₁·w[0, c] + t₂·w[1, c]) + t₃·w[2, c]) + t₄·w[3, c]) + t₅·w[4, c])   at [b, h, x, c],
  the five products added left to right. The same sum written over the images flattened to
  [131072, 128] rows (row r = (b·128 + h)·128 + x), and the fact that flattening the operands,
  merging row by row and un-flattening the result is the merge of the images themselves: the two
  layouts share the row-major position, and the weight read depends on the channel coordinate alone,
  which is the last coordinate in both.
-/
import Idealize.ShloMosaic.Lib.ValueIdx
import Idealize.ShloMosaic.Lib.Pipeline.Value

noncomputable section

namespace Cert.WeightedSum

open Idealize.ShloMosaic Idealize.ShloMosaic.ValueIdx

variable {F : FTy → Type} [FloatOps F]

/-- An image: batch, height, width, channel. -/
abbrev Img : Shape := ⟨4, ![8, 128, 128, 128]⟩
/-- The same entries as rows of channels: row (b·128 + h)·128 + x holds pixel (b, h, x). -/
abbrev Rows : Shape := ⟨2, ![131072, 128]⟩
/-- The weights: one row per image, one entry per channel. -/
abbrev Wts : Shape := ⟨2, ![5, 128]⟩

/-- The five weighted entries added left to right: the scalar both programs compute at every index. -/
def mix (a1 a2 a3 a4 a5 w0 w1 w2 w3 w4 : Elt F .f32) : Elt F .f32 :=
  FloatOps.addf (FloatOps.addf (FloatOps.addf (FloatOps.addf (FloatOps.mulf a1 w0) (FloatOps.mulf a2 w1))
    (FloatOps.mulf a3 w2)) (FloatOps.mulf a4 w3)) (FloatOps.mulf a5 w4)

/-- The merge of five images: at pixel (b, h, x) and channel c, image j weighted by `w[j, c]`. -/
def merged (t1 t2 t3 t4 t5 : Img.Idx → Elt F .f32) (w : Wts.Idx → Elt F .f32) : Img.Idx → Elt F .f32 := fun i =>
  mix (t1 i) (t2 i) (t3 i) (t4 i) (t5 i) (w (ix2 0 (i 3))) (w (ix2 1 (i 3))) (w (ix2 2 (i 3))) (w (ix2 3 (i 3))) (w (ix2 4 (i 3)))

/-- The same merge of five arrays of rows: at row r and channel c, array j weighted by `w[j, c]`. -/
def mergedRows (T1 T2 T3 T4 T5 : Rows.Idx → Elt F .f32) (w : Wts.Idx → Elt F .f32) : Rows.Idx → Elt F .f32 := fun k =>
  mix (T1 k) (T2 k) (T3 k) (T4 k) (T5 k) (w (ix2 0 (k 1))) (w (ix2 1 (k 1))) (w (ix2 2 (k 1))) (w (ix2 3 (k 1))) (w (ix2 4 (k 1)))

/-- Flatten the five images to rows, merge row by row, view the result as an image again: the merge of
    the images. Pixel (b, h, x), channel c of the image is row (b·128 + h)·128 + x, channel c of the rows
    (one row-major position), in both directions, and the weight's channel is c on both sides. -/
theorem unflatten_mergedRows (hR : Img.ShapeCasts Rows) (hI : Rows.ShapeCasts Img)
    (t1 t2 t3 t4 t5 : Img.Idx → Elt F .f32) (w : Wts.Idx → Elt F .f32) :
    shapeCast Img (mergedRows (shapeCast Rows t1 hR) (shapeCast Rows t2 hR) (shapeCast Rows t3 hR)
      (shapeCast Rows t4 hR) (shapeCast Rows t5 hR) w) hI = merged t1 t2 t3 t4 t5 w := by
  funext i
  obtain ⟨b, h, x, c, rfl⟩ : ∃ (b : Fin 8) (h x c : Fin 128), i = ix4 b h x c := ⟨i 0, i 1, i 2, i 3, eq_ix4 i⟩
  have hlt : (b.val * 128 + h.val) * 128 + x.val < 131072 := by
    have := b.isLt; have := h.isLt; have := x.isLt; omega
  have hpos : (Rows.rowMajor (ix2 ⟨(b.val * 128 + h.val) * 128 + x.val, hlt⟩ c)).val = (Img.rowMajor (ix4 b h x c)).val := by
    rw [Shape.rowMajor_val_two, Shape.rowMajor_val_four]
    show ((b.val * 128 + h.val) * 128 + x.val) * 128 + c.val = ((b.val * 128 + h.val) * 128 + x.val) * 128 + c.val
    rfl
  have back : ∀ t : Img.Idx → Elt F .f32,
      shapeCast Rows t hR (ix2 ⟨(b.val * 128 + h.val) * 128 + x.val, hlt⟩ c) = t (ix4 b h x c) :=
    fun t => shapeCast_apply t hR _ _ hpos.symm
  rw [shapeCast_apply _ hI (ix4 b h x c) (ix2 ⟨(b.val * 128 + h.val) * 128 + x.val, hlt⟩ c) hpos]
  unfold mergedRows merged
  rw [back t1, back t2, back t3, back t4, back t5]

end Cert.WeightedSum

end
-- ==== Proof.Payload.lean ====
/-
  The kernel body's arithmetic at one entry of its block. The body loads the five [4096, 128] blocks
  and the five rows of the [5, 128] weight block, spreads each weight row down the 4096 rows, and adds
  the five products left to right; read at row r, channel c of the block this is the scalar merge of
  the five block entries at (r, c) with the five weights at channel c. The casts around the weight rows
  ([1, 128] → [128] → [1, 128]) cancel, the casts of the blocks to their own shape are the identity, and a
  [1, 128] row spread to [4096, 128] reads its channel.
-/
import proofs.«153844_j20538533609780_1_alg».proof.Proof.Gen.KernelIdeal.Skeleton
import proofs.«153844_j20538533609780_1_alg».proof.Proof.WeightedSum
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx Cert.WeightedSum

variable {F : FTy → Type} [FloatOps F]

/-- A weight row, cast to a vector and back and spread down the block's rows, read at (r, c): the row at c. -/
theorem spread_row (v : Vec F S1x128 .f32) (p : Fin 4096) (q : Fin 128) :
    broadcastTo S4096x128 (shapeCast S1x128 (shapeCast S128 v shapeCasts_S1x128_S128) shapeCasts_S128_S1x128)
      broadcasts_S1x128_S4096x128 (ix2 p q) = v (ix2 0 q) := by
  rw [shapeCast_shapeCast]
  exact broadcastTo_apply v broadcasts_S1x128_S4096x128 (ix2 p q) (ix2 0 q) (fun a => match a with
    | ⟨0, _⟩ => by show 0 = if (1 : Nat) = 1 then 0 else _; rw [if_pos rfl]
    | ⟨1, _⟩ => by show q.val = if (128 : Nat) = 1 then 0 else _; rw [if_neg (by decide)]; rfl)

/-- The body's one stored value at row `p`, channel `q` of the block: the merge of the five loaded blocks' entries
    at (p, q) with the five loaded weight rows at channel `q`. -/
theorem pay_apply (v0 v2 v4 v6 v8 : Vec F S1x128 .f32) (v10 v15 v21 v27 v33 : Vec F S4096x128 .f32) (p : Fin 4096) (q : Fin 128) :
    k0_pay1 v0 v2 v4 v6 v8 v10 v15 v21 v27 v33 (ix2 p q)
      = mix (v10 (ix2 p q)) (v15 (ix2 p q)) (v21 (ix2 p q)) (v27 (ix2 p q)) (v33 (ix2 p q)) (v0 (ix2 0 q)) (v2 (ix2 0 q))
          (v4 (ix2 0 q)) (v6 (ix2 0 q)) (v8 (ix2 0 q)) := by
  unfold k0_pay1 mix
  simp only [shapeCast_self]
  show FloatOps.addf (FloatOps.addf (FloatOps.addf (FloatOps.addf (FloatOps.mulf (v10 (ix2 p q)) _) (FloatOps.mulf (v15 (ix2 p q)) _))
    (FloatOps.mulf (v21 (ix2 p q)) _)) (FloatOps.mulf (v27 (ix2 p q)) _)) (FloatOps.mulf (v33 (ix2 p q)) _) = _
  rw [spread_row v0 p q, spread_row v2 p q, spread_row v4 p q, spread_row v6 p q, spread_row v8 p q]

end Cert.KernelIdeal.Hand

end
-- ==== Proof.KernelValue.lean ====
/-
  What the idealized kernel program leaves in its result, as one function of its arguments.
  The program flattens the five images to [131072, 128] rows, runs the kernel over 32 blocks of 4096
  rows, and views the [131072, 128] result as an image again. Here: what the body leaves in the output
  block as a function of its input blocks, entry by entry (`out_apply`); that grid point t writes back
  rows 4096·t … 4096·t + 4095 of the row-by-row merge of the flattened images, the input blocks being
  the same rows of the flattened images and the weight block the whole weight table (`flushed_eq`); that
  the 32 blocks cover every row, row r in block r / 4096 (`covered`), so the array ends at the row-by-row
  merge (`rows_final`); the reshapes before and after the kernel (`flat_arg`, `tail_result`); and the run.
-/
import proofs.«153844_j20538533609780_1_alg».proof.Proof.Gen.KernelIdeal.Frame
import proofs.«153844_j20538533609780_1_alg».proof.Proof.Payload
import Idealize.ShloMosaic.Lib.Pipeline.Value
import Idealize.ShloMosaic.Lib.StableHlo.Run
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.ValueIdx Cert.WeightedSum
open Idealize.ShloMosaic.Pipeline (Dat)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-! ## The body: the output block from the input blocks -/

/-- Row `k` of the weight block, loaded as a [1, 128] vector and read at channel `q`, is the block at (k, q). -/
theorem ld_row (x5 : Vec F S5x128 .f32) (k : Nat) (hk : k < 5) (inb : ∀ a, (![k, 0] : Fin 2 → Nat) a + S1x128.size a ≤ S5x128.size a)
    (q : Fin 128) : View.ld x5 (Rect.unit (s := S5x128) ![k, 0] S1x128.size inb) (ix2 0 q) = x5 (ix2 ⟨k, hk⟩ q) :=
  congrArg x5 (funext fun a => Fin.ext (match a with
    | ⟨0, _⟩ => by show k + 1 * 0 = k; omega
    | ⟨1, _⟩ => by show 0 + 1 * q.val = q.val; omega))

/-- What the body leaves in the output block: at row r and channel c, the merge of the five input blocks'
    entries at (r, c) weighted by the weight block's column c. -/
theorem out_apply (x0 x1 x2 x3 x4 : Vec F S4096x128 .f32) (x5 : Vec F S5x128 .f32) (p : Fin 4096) (q : Fin 128) :
    out0_6 x0 x1 x2 x3 x4 x5 (ix2 p q)
      = mix (x0 (ix2 p q)) (x1 (ix2 p q)) (x2 (ix2 p q)) (x3 (ix2 p q)) (x4 (ix2 p q)) (x5 (ix2 0 q)) (x5 (ix2 1 q))
          (x5 (ix2 2 q)) (x5 (ix2 3 q)) (x5 (ix2 4 q)) := by
  unfold out0_6
  rw [View.canon_unit_zero zero_offsets]
  simp only [View.ld_unit_zero (S := S4096x128) zero_offsets]
  rw [pay_apply]
  rw [ld_row x5 0 (by decide) inb_S5x128_S1x128_0_0, ld_row x5 1 (by decide) inb_S5x128_S1x128_1_0,
    ld_row x5 2 (by decide) inb_S5x128_S1x128_2_0, ld_row x5 3 (by decide) inb_S5x128_S1x128_3_0,
    ld_row x5 4 (by decide) inb_S5x128_S1x128_4_0]
  rfl

/-! ## The blocks: which rows a grid point reads and writes -/

/-- The printed index maps over the 32 grid points: every image window and the output window are at block
    (t, 0) at point t, the weight window at block (0, 0). -/
theorem blocks_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0)

/-- The five flattened images and the weight table as the kernel finds them. -/
abbrev rowsOf (c : Dev nD) : Rows.Idx → Elt F .f32 :=
  mergedRows (V m c main_v0) (V m c main_v1) (V m c main_v2) (V m c main_v3) (V m c main_v4) (V m c main_arg5)

/-- WHAT POINT `t` WRITES BACK is its block of the row-by-row merge of the flattened images: entry (p, q) of
    every image block at point t is entry (4096·t + p, q) of its flattened image, the same entry the output
    block's (p, q) lands on, and entry (k, q) of the weight block is entry (k, q) of the weight table. -/
theorem flushed_eq (c : Dev nD) (t : Fin cfg0.N) :
    (dats m 0 c).flushed 6 t = ((cfg0.win 6).blk t).view.read (Elt F) (rowsOf m c) := by
  show (cfg0.win 6).cut (grid0.coords t) ((dats m 0 c).after 6 t) = _
  rw [after0_6]
  obtain ⟨a00, a01, a10, a11, a20, a21, a30, a31, a40, a41, a50, a51, a60, a61⟩ := blocks_at t
  funext j
  obtain ⟨p, q, rfl⟩ : ∃ (p : Fin 4096) (q : Fin 128), j = ix2 p q := ⟨j 0, j 1, eq_ix2 j⟩
  show out0_6 (iblk m c 0 t) (iblk m c 1 t) (iblk m c 2 t) (iblk m c 3 t) (iblk m c 4 t) (iblk m c 5 t) (ix2 p q) = _
  rw [out_apply]
  have ht : t.val < 32 := lt_of_lt_of_eq t.isLt N_0
  have hrow : 4096 * t.val + p.val < 131072 := by have := p.isLt; omega
  have e0 : ((cfg0.win 0).blk t).view.emb (ix2 p q) = (ix2 ⟨4096 * t.val + p.val, hrow⟩ q : S131072x128.Idx) := by
    funext a; apply Fin.ext
    match a with
    | ⟨0, _⟩ => show win0_0.index t (0 : Fin 2) * 4096 + 1 * p.val = 4096 * t.val + p.val; omega
    | ⟨1, _⟩ => show win0_0.index t (1 : Fin 2) * 128 + 1 * q.val = q.val; omega
  have e1 : ((cfg0.win 1).blk t).view.emb (ix2 p q) = (ix2 ⟨4096 * t.val + p.val, hrow⟩ q : S131072x128.Idx) := by
    funext a; apply Fin.ext
    match a with
    | ⟨0, _⟩ => show win0_1.index t (0 : Fin 2) * 4096 + 1 * p.val = 4096 * t.val + p.val; omega
    | ⟨1, _⟩ => show win0_1.index t (1 : Fin 2) * 128 + 1 * q.val = q.val; omega
  have e2 : ((cfg0.win 2).blk t).view.emb (ix2 p q) = (ix2 ⟨4096 * t.val + p.val, hrow⟩ q : S131072x128.Idx) := by
    funext a; apply Fin.ext
    match a with
    | ⟨0, _⟩ => show win0_2.index t (0 : Fin 2) * 4096 + 1 * p.val = 4096 * t.val + p.val; omega
    | ⟨1, _⟩ => show win0_2.index t (1 : Fin 2) * 128 + 1 * q.val = q.val; omega
  have e3 : ((cfg0.win 3).blk t).view.emb (ix2 p q) = (ix2 ⟨4096 * t.val + p.val, hrow⟩ q : S131072x128.Idx) := by
    funext a; apply Fin.ext
    match a with
    | ⟨0, _⟩ => show win0_3.index t (0 : Fin 2) * 4096 + 1 * p.val = 4096 * t.val + p.val; omega
    | ⟨1, _⟩ => show win0_3.index t (1 : Fin 2) * 128 + 1 * q.val = q.val; omega
  have e4 : ((cfg0.win 4).blk t).view.emb (ix2 p q) = (ix2 ⟨4096 * t.val + p.val, hrow⟩ q : S131072x128.Idx) := by
    funext a; apply Fin.ext
    match a with
    | ⟨0, _⟩ => show win0_4.index t (0 : Fin 2) * 4096 + 1 * p.val = 4096 * t.val + p.val; omega
    | ⟨1, _⟩ => show win0_4.index t (1 : Fin 2) * 128 + 1 * q.val = q.val; omega
  have e6 : ((cfg0.win 6).blk t).view.emb (ix2 p q) = (ix2 ⟨4096 * t.val + p.val, hrow⟩ q : S131072x128.Idx) := by
    funext a; apply Fin.ext
    match a with
    | ⟨0, _⟩ => show win0_6.index t (0 : Fin 2) * 4096 + 1 * p.val = 4096 * t.val + p.val; omega
    | ⟨1, _⟩ => show win0_6.index t (1 : Fin 2) * 128 + 1 * q.val = q.val; omega
  have e5 : ∀ k : Fin 5, ((cfg0.win 5).blk t).view.emb (ix2 k q) = (ix2 k q : S5x128.Idx) := fun k => by
    funext a; apply Fin.ext
    match a with
    | ⟨0, _⟩ => show win0_5.index t (0 : Fin 2) * 5 + 1 * k.val = k.val; omega
    | ⟨1, _⟩ => show win0_5.index t (1 : Fin 2) * 128 + 1 * q.val = q.val; omega
  show mix (V m c main_v0 (((cfg0.win 0).blk t).view.emb (ix2 p q))) (V m c main_v1 (((cfg0.win 1).blk t).view.emb (ix2 p q)))
      (V m c main_v2 (((cfg0.win 2).blk t).view.emb (ix2 p q))) (V m c main_v3 (((cfg0.win 3).blk t).view.emb (ix2 p q)))
      (V m c main_v4 (((cfg0.win 4).blk t).view.emb (ix2 p q)))
      (V m c main_arg5 (((cfg0.win 5).blk t).view.emb (ix2 0 q))) (V m c main_arg5 (((cfg0.win 5).blk t).view.emb (ix2 1 q)))
      (V m c main_arg5 (((cfg0.win 5).blk t).view.emb (ix2 2 q))) (V m c main_arg5 (((cfg0.win 5).blk t).view.emb (ix2 3 q)))
      (V m c main_arg5 (((cfg0.win 5).blk t).view.emb (ix2 4 q)))
    = rowsOf m c (((cfg0.win 6).blk t).view.emb (ix2 p q))
  rw [e0, e1, e2, e3, e4, e5 0, e5 1, e5 2, e5 3, e5 4, e6]
  rfl

/-! ## The cover: every row is in one block -/

/-- A row index of the array is in point `t`'s block iff each coordinate is in the block's range on its axis. -/
theorem mem_block (t : Fin cfg0.N) (i : S131072x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v5).slice (win0_6.rect t)).set ↔ _
  rw [View.set_slice_whole, Rect.mem_set_unit]
  exact Iff.rfl

/-- Row r is written back by point r / 4096. -/
theorem covered (i : S131072x128.Idx) :
    ∃ t : Fin cfg0.N, (cfg0.win 6).flush t = true ∧ i ∈ ((cfg0.win 6).blk t).view.set := by
  have hi0 : (i 0).val < 131072 := (i 0).isLt
  have hi1 : (i 1).val < 128 := (i 1).isLt
  obtain ⟨t, ht⟩ : ∃ t : Fin cfg0.N, t.val = (i 0).val / 4096 :=
    ⟨⟨(i 0).val / 4096, lt_of_lt_of_eq (show (i 0).val / 4096 < 32 by omega) N_0.symm⟩, rfl⟩
  obtain ⟨-, -, -, -, -, -, -, -, -, -, -, -, a60, a61⟩ := blocks_at t
  refine ⟨t, flush0_6 t, ?_⟩
  rw [mem_block]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 128 ≤ (i 1).val ∧ (i 1).val < win0_6.index t (1 : Fin 2) * 128 + 128; omega

/-- THE KERNEL'S RESULT ARRAY after the run: the row-by-row merge of the flattened images. -/
theorem rows_final (c : Dev nD) : (dats m 0 c).arrAt 6 cfg0.N = rowsOf m c :=
  (dats m 0 c).arrAt_eq_of_cover 6 (rowsOf m c) (fun t _ => flushed_eq m c t) covered

/-! ## The reshapes around the kernel -/

/-- The host lines before the kernel flatten each image to rows. -/
theorem flat_arg0 (c : Dev nD) : (V m c main_v0 : S131072x128.Idx → Elt F .f32)
    = shapeCast S131072x128 (m ((c : Thread nD τ).loc main_arg0)) shapeCasts_S8x128x128x128_S131072x128 := by
  show StableHlo.after hostOps0 (fun b => m (c, b)) (Proc.devRef .tc main_v0) = _
  after_results
  rfl
theorem flat_arg1 (c : Dev nD) : (V m c main_v1 : S131072x128.Idx → Elt F .f32)
    = shapeCast S131072x128 (m ((c : Thread nD τ).loc main_arg1)) shapeCasts_S8x128x128x128_S131072x128 := by
  show StableHlo.after hostOps0 (fun b => m (c, b)) (Proc.devRef .tc main_v1) = _
  after_results
  rfl
theorem flat_arg2 (c : Dev nD) : (V m c main_v2 : S131072x128.Idx → Elt F .f32)
    = shapeCast S131072x128 (m ((c : Thread nD τ).loc main_arg2)) shapeCasts_S8x128x128x128_S131072x128 := by
  show StableHlo.after hostOps0 (fun b => m (c, b)) (Proc.devRef .tc main_v2) = _
  after_results
  rfl
theorem flat_arg3 (c : Dev nD) : (V m c main_v3 : S131072x128.Idx → Elt F .f32)
    = shapeCast S131072x128 (m ((c : Thread nD τ).loc main_arg3)) shapeCasts_S8x128x128x128_S131072x128 := by
  show StableHlo.after hostOps0 (fun b => m (c, b)) (Proc.devRef .tc main_v3) = _
  after_results
  rfl
theorem flat_arg4 (c : Dev nD) : (V m c main_v4 : S131072x128.Idx → Elt F .f32)
    = shapeCast S131072x128 (m ((c : Thread nD τ).loc main_arg4)) shapeCasts_S8x128x128x128_S131072x128 := by
  show StableHlo.after hostOps0 (fun b => m (c, b)) (Proc.devRef .tc main_v4) = _
  after_results
  rfl

/-- The host line after the kernel views the kernel's result array as an image. -/
theorem tail_result (c : Dev nD) :
    (Pipeline.afterTail₀ cfgs (dats m) 0 (V0 m) [hostOps1] c main_v6 : S8x128x128x128.Idx → Elt F .f32)
      = shapeCast S8x128x128x128 ((dats m 0 c).arrAt 6 cfg0.N) shapeCasts_S131072x128_S8x128x128x128 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = (dats m 0 c).arrAt 6 cfg0.N := Pipeline.withArrays_arr spec0 launch0.win.arr_inj c _ _ 6
  rw [e]
  rfl

/-- The image the program returns is the merge of its six arguments: the kernel's rows, un-flattened, are the
    row-by-row merge of the flattened images, un-flattened. -/
theorem result_eq (c : Dev nD) :
    (Pipeline.afterTail₀ cfgs (dats m) 0 (V0 m) [hostOps1] c main_v6 : S8x128x128x128.Idx → Elt F .f32)
      = merged (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [tail_result, rows_final]
  unfold rowsOf
  rw [flat_arg0, flat_arg1, flat_arg2, flat_arg3, flat_arg4, V_main_arg5]
  exact unflatten_mergedRows shapeCasts_S8x128x128x128_S131072x128 shapeCasts_S131072x128_S8x128x128x128 _ _ _ _ _ _

/-! ## The run -/

/-- Every weakly fair execution of the program terminates with the result image at the merge of the arguments
    and the arguments unchanged. -/
theorem run : θ_run defs (onTc (τ := τ) (main (F := F))) ⟨m, fun _ => 0, ρ⟩ fun r => ∀ c : Dev nD,
      r.2.mem ((c.tc : Thread nD τ).loc main_v6)
        = merged (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelIdeal.Hand

end
-- ==== Proof.RefValue.lean ====
/-
  The reference program's result, stage by stage, is the merge of the five images. For each image j the
  reference slices row j of the weight table, drops its unit axis, and broadcasts it along the channel axis
  to the image's shape: read at pixel (b, h, x), channel c this is the weight table at (j, c). The five
  products are then added left to right, which is the merge's scalar at every index.
-/
import proofs.«153844_j20538533609780_1_alg».proof.Proof.Gen.ReferenceIdeal.Read
import proofs.«153844_j20538533609780_1_alg».proof.Proof.WeightedSum
import Idealize.ShloMosaic.Lib.ValueIdx

noncomputable section

namespace Cert.ReferenceIdeal.Hand

open Cert.ReferenceIdeal Cert.ReferenceIdeal.Gen Cert.ReferenceIdeal.Read Idealize.ShloMosaic Idealize.ShloMosaic.ValueIdx
open Cert.WeightedSum

variable {F : FTy → Type} [FloatOps F]

/-- Row 0 of the weights, broadcast to the image's shape, read at channel `c` of any pixel. -/
theorem weight0 (x5 : (⟨S5x128, .f32⟩ : BufTy).Contents (Elt F)) (b : Fin 8) (h x c : Fin 128) :
    val_main_v3 (F := F) x5 (ix4 b h x c) = x5 (ix2 0 c) := by
  rw [val_main_v3_apply, val_main_v2_apply, val_main_v1_apply, val_main_v0_apply]
  exact congrArg x5 (funext fun a => Fin.ext (match a with
    | ⟨0, _⟩ => rfl
    | ⟨1, _⟩ => by show c.val % 128 = c.val; exact Nat.mod_eq_of_lt c.isLt))

/-- Row 1. -/
theorem weight1 (x5 : (⟨S5x128, .f32⟩ : BufTy).Contents (Elt F)) (b : Fin 8) (h x c : Fin 128) :
    val_main_v8 (F := F) x5 (ix4 b h x c) = x5 (ix2 1 c) := by
  rw [val_main_v8_apply, val_main_v7_apply, val_main_v6_apply, val_main_v5_apply]
  exact congrArg x5 (funext fun a => Fin.ext (match a with
    | ⟨0, _⟩ => rfl
    | ⟨1, _⟩ => by show c.val % 128 = c.val; exact Nat.mod_eq_of_lt c.isLt))

/-- Row 2. -/
theorem weight2 (x5 : (⟨S5x128, .f32⟩ : BufTy).Contents (Elt F)) (b : Fin 8) (h x c : Fin 128) :
    val_main_v14 (F := F) x5 (ix4 b h x c) = x5 (ix2 2 c) := by
  rw [val_main_v14_apply, val_main_v13_apply, val_main_v12_apply, val_main_v11_apply]
  exact congrArg x5 (funext fun a => Fin.ext (match a with
    | ⟨0, _⟩ => rfl
    | ⟨1, _⟩ => by show c.val % 128 = c.val; exact Nat.mod_eq_of_lt c.isLt))

/-- Row 3. -/
theorem weight3 (x5 : (⟨S5x128, .f32⟩ : BufTy).Contents (Elt F)) (b : Fin 8) (h x c : Fin 128) :
    val_main_v20 (F := F) x5 (ix4 b h x c) = x5 (ix2 3 c) := by
  rw [val_main_v20_apply, val_main_v19_apply, val_main_v18_apply, val_main_v17_apply]
  exact congrArg x5 (funext fun a => Fin.ext (match a with
    | ⟨0, _⟩ => rfl
    | ⟨1, _⟩ => by show c.val % 128 = c.val; exact Nat.mod_eq_of_lt c.isLt))

/-- Row 4. -/
theorem weight4 (x5 : (⟨S5x128, .f32⟩ : BufTy).Contents (Elt F)) (b : Fin 8) (h x c : Fin 128) :
    val_main_v26 (F := F) x5 (ix4 b h x c) = x5 (ix2 4 c) := by
  rw [val_main_v26_apply, val_main_v25_apply, val_main_v24_apply, val_main_v23_apply]
  exact congrArg x5 (funext fun a => Fin.ext (match a with
    | ⟨0, _⟩ => rfl
    | ⟨1, _⟩ => by show c.val % 128 = c.val; exact Nat.mod_eq_of_lt c.isLt))

/-- The reference's last stage is the merge of its arguments. -/
theorem result_eq (x0 x1 x2 x3 x4 : (⟨S8x128x128x128, .f32⟩ : BufTy).Contents (Elt F)) (x5 : (⟨S5x128, .f32⟩ : BufTy).Contents (Elt F)) :
    val_main_v28 (F := F) x0 x1 x2 x3 x4 x5 = merged x0 x1 x2 x3 x4 x5 := by
  funext i
  obtain ⟨b, h, x, c, rfl⟩ : ∃ (b : Fin 8) (h x c : Fin 128), i = ix4 b h x c := ⟨i 0, i 1, i 2, i 3, eq_ix4 i⟩
  rw [val_main_v28_apply, val_main_v22_apply, val_main_v16_apply, val_main_v10_apply, val_main_v4_apply, val_main_v9_apply,
    val_main_v15_apply, val_main_v21_apply, val_main_v27_apply, weight0, weight1, weight2, weight3, weight4]
  rfl

end Cert.ReferenceIdeal.Hand

end
-- ==== Proof.lean ====
/-
  The merge of five images by per-channel weights, out[b, h, x, c] = Σⱼ w[j, c] · tⱼ[b, h, x, c] with the five
  products added left to right, computed by a kernel over the images flattened to rows and by a plain
  reference; the certificate that the two agree over the extended reals.

  Both programs add the five products in the same order, so no law of arithmetic is used and the
  precondition (finite inputs) is never opened: at every index both results are literally the same
  expression `mix` of the same ten entries (Proof/WeightedSum.lean). What is proved is where each
  program reads those entries. The kernel program flattens each image to [131072, 128] rows, runs 32
  grid points of 4096 rows, each writing the merge of its rows (Proof/Payload.lean, Proof/KernelValue.lean),
  and views the rows as an image again; flattening, merging by rows and un-flattening is the merge of the
  images because the two layouts share the row-major position and the weight depends on the channel alone.
  The reference slices and broadcasts each weight row along the channel axis (Proof/RefValue.lean).
  The three frames are the generated ones; nothing was rewritten by the idealization.
-/
import proofs.«153844_j20538533609780_1_alg».proof.Defs
import proofs.«153844_j20538533609780_1_alg».proof.Proof.Gen.Kernel
import proofs.«153844_j20538533609780_1_alg».proof.Proof.Gen.Kernel.Skeleton
import proofs.«153844_j20538533609780_1_alg».proof.Proof.Gen.Kernel.Launch
import proofs.«153844_j20538533609780_1_alg».proof.Proof.Gen.Kernel.Points
import proofs.«153844_j20538533609780_1_alg».proof.Proof.Gen.Kernel.Frame
import proofs.«153844_j20538533609780_1_alg».proof.Proof.Gen.KernelIdeal
import proofs.«153844_j20538533609780_1_alg».proof.Proof.Gen.KernelIdeal.Skeleton
import proofs.«153844_j20538533609780_1_alg».proof.Proof.Gen.KernelIdeal.Launch
import proofs.«153844_j20538533609780_1_alg».proof.Proof.Gen.KernelIdeal.Points
import proofs.«153844_j20538533609780_1_alg».proof.Proof.Gen.KernelIdeal.Frame
import proofs.«153844_j20538533609780_1_alg».proof.Proof.Gen.ReferenceIdeal
import proofs.«153844_j20538533609780_1_alg».proof.Proof.Gen.Pre_finite_inputs
import proofs.«153844_j20538533609780_1_alg».proof.Proof.Gen.ReferenceIdeal.Run
import proofs.«153844_j20538533609780_1_alg».proof.Proof.Gen.ReferenceIdeal.Read
import proofs.«153844_j20538533609780_1_alg».proof.Proof.WeightedSum
import proofs.«153844_j20538533609780_1_alg».proof.Proof.KernelValue
import proofs.«153844_j20538533609780_1_alg».proof.Proof.RefValue
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the merge of the (agreeing) arguments as their result image. -/
theorem algebraic : Cert.algebraic_KernelIdeal_ReferenceIdeal := by
  intro m ρ m' ρ' _ hagree
  refine ⟨fun c => Cert.WeightedSum.merged
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5⟩ := hagree c
  rw [Cert.ReferenceIdeal.Read.val_main_v28_eq, Cert.ReferenceIdeal.Hand.result_eq, g0, g1, g2, g3, g4, g5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
